-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x1024 : Shape := ⟨2, ![64, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S64x512x1024 .f32) (main_arg1 : IVec S64x1024 32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_c_0 : IVec S_ 32 := constantI S_ 32 0#32
  let main_v4 : IVec S64x1024 32 := broadcastInDim S64x1024 ![] bcast_S_S64x1024 main_c_0
  let main_v5 : IVec S64x1024 1 := cmpi .sge main_arg1 main_v4
  let main_c_1 : IVec S_ 32 := constantI S_ 32 512#32
  let main_v6 : IVec S64x1024 32 := broadcastInDim S64x1024 ![] bcast_S_S64x1024 main_c_1
  let main_v7 : IVec S64x1024 1 := cmpi .slt main_arg1 main_v6
  let main_v8 : IVec S64x1024 1 := andi main_v5 main_v7
  let main_c_2 : IVec S_ 1 := constantI S_ 1 1#1
  let main_v9 : IVec S_ 1 := (fun x v => Host.reduce IntOp.andi x v reducesTo_S64x1024_S_d0_1 h_S_) main_v8 main_c_2
  let main_v10 : IVec S_ 1 := andi main_v3 main_v9
  main_v10
-- ==== Kernel.lean ====
abbrev S64x512x1024 : Shape := ⟨3, ![64, 512, 1024]⟩
abbrev S64x1024 : Shape := ⟨2, ![64, 1024]⟩
abbrev S8x256x1024 : Shape := ⟨3, ![8, 256, 1024]⟩
abbrev S8x1024 : Shape := ⟨2, ![8, 1024]⟩
abbrev S1x256x1 : Shape := ⟨3, ![1, 256, 1]⟩
abbrev S8x1x1024 : Shape := ⟨3, ![8, 1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S64x512x1024, .f32⟩
  | .hbm, ⟨1, _⟩ => ⟨S64x1024, .i32⟩
  | .hbm, ⟨2, _⟩ => ⟨S64x1024, .f32⟩
  | .local _ .vmem, ⟨0, _⟩ => ⟨S8x256x1024, .f32⟩
  | .local _ .vmem, ⟨1, _⟩ => ⟨S8x256x1024, .f32⟩
  | .local _ .vmem, ⟨2, _⟩ => ⟨S8x1024, .i32⟩
  | .local _ .vmem, ⟨3, _⟩ => ⟨S8x1024, .i32⟩
  | .local _ .vmem, ⟨4, _⟩ => ⟨S8x1024, .f32⟩
  | .local _ .vmem, ⟨5, _⟩ => ⟨S8x1024, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  iota_S1x256x1_d1_w32 : S1x256x1.Iotas .tc 32 [1]
  shapeCasts_S8x1024_S8x1x1024 : S8x1024.ShapeCasts S8x1x1024
  broadcasts_S1x256x1_S8x256x1024 : S1x256x1.Broadcasts S8x256x1024
  broadcasts_S8x1x1024_S8x256x1024 : S8x1x1024.Broadcasts S8x256x1024
  inb_S8x256x1024_S8x256x1024_0_0_0 : ∀ a, (![0, 0, 0] : Fin 3 → Nat) a + S8x256x1024.size a ≤ S8x256x1024.size a
  h_S8x256x1024 : 0 < S8x256x1024.numel
  shapeCasts_S8x1024_S8x1024 : S8x1024.ShapeCasts S8x1024
  reduces_S8x256x1024_S8x1024 : S8x256x1024.Reduces [1] S8x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x512x1024.size a
  hwx0_0 : ∀ i : grid0.Coords, EltTy.bits .f32 = 32 ∨ (Rect.block (s := S64x512x1024) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .i32 = 32 ∨ (Rect.block (s := S64x1024) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x1024.size a
  hwx0_2 : ∀ i : grid0.Coords, EltTy.bits .f32 = 32 ∨ (Rect.block (s := S64x1024) S8x1024.size (cc0_transform_2 i) (hinb0_2 i)).WholeWords (EltTy.packing .f32)

variable [Facts₀]

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x1024 : Shape := ⟨2, ![64, 1024]⟩
abbrev S64x1x1024 : Shape := ⟨3, ![64, 1, 1024]⟩
abbrev S_ : Shape := ⟨0, ![]⟩
abbrev S64x1x1024x1 : Shape := ⟨4, ![64, 1, 1024, 1]⟩
abbrev S1 : Shape := ⟨1, ![1]⟩
abbrev S1x1x1x1 : Shape := ⟨4, ![1, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x1024, .i32⟩
  | .hbm, ⟨2, _⟩ => ⟨S64x1x1024, .i32⟩
  | .hbm, ⟨3, _⟩ => ⟨S_, .i32⟩
  | .hbm, ⟨4, _⟩ => ⟨S64x1x1024, .i32⟩
  | .hbm, ⟨5, _⟩ => ⟨S64x1x1024, .i1⟩
  | .hbm, ⟨6, _⟩ => ⟨S_, .i32⟩
  | .hbm, ⟨7, _⟩ => ⟨S64x1x1024, .i32⟩
  | .hbm, ⟨8, _⟩ => ⟨S64x1x1024, .i32⟩
  | .hbm, ⟨9, _⟩ => ⟨S64x1x1024, .i32⟩
  | .hbm, ⟨10, _⟩ => ⟨S64x1x1024x1, .i32⟩
  | .hbm, ⟨11, _⟩ => ⟨S1, .i32⟩
  | .hbm, ⟨12, _⟩ => ⟨S_, .i32⟩
  | .hbm, ⟨13, _⟩ => ⟨S64x1x1024x1, .i32⟩
  | .hbm, ⟨14, _⟩ => ⟨S64x1x1024x1, .i1⟩
  | .hbm, ⟨15, _⟩ => ⟨S1x1x1x1, .i32⟩
  | .hbm, ⟨16, _⟩ => ⟨S64x1x1024x1, .i32⟩
  | .hbm, ⟨17, _⟩ => ⟨S64x1x1024x1, .i1⟩
  | .hbm, ⟨18, _⟩ => ⟨S64x1x1024x1, .i1⟩
  | .hbm, ⟨19, _⟩ => ⟨S_, .i1⟩
  | .hbm, ⟨20, _⟩ => ⟨S64x1x1024, .i1⟩
  | .hbm, ⟨21, _⟩ => ⟨S64x1x1024, .f32⟩
  | .hbm, ⟨22, _⟩ => ⟨S_, .f32⟩
  | .hbm, ⟨23, _⟩ => ⟨S64x1x1024, .f32⟩
  | .hbm, ⟨24, _⟩ => ⟨S64x1x1024, .f32⟩
  | .hbm, ⟨25, _⟩ => ⟨S64x1024, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  bcast_S64x1024_S64x1x1024_0_2 : S64x1024.BroadcastsInDim S64x1x1024 (![0, 2] : Fin 2 → Fin S64x1x1024.rank)
  bcast_S_S64x1x1024 : S_.BroadcastsInDim S64x1x1024 (![] : Fin 0 → Fin S64x1x1024.rank)
  shapeCasts_S64x1x1024_S64x1x1024x1 : S64x1x1024.ShapeCasts S64x1x1024x1
  bcast_S_S64x1x1024x1 : S_.BroadcastsInDim S64x1x1024x1 (![] : Fin 0 → Fin S64x1x1024x1.rank)
  bcast_S1_S1x1x1x1_3 : S1.BroadcastsInDim S1x1x1x1 (![3] : Fin 1 → Fin S1x1x1x1.rank)
  bcast_S1x1x1x1_S64x1x1024x1_0_1_2_3 : S1x1x1x1.BroadcastsInDim S64x1x1024x1 (![0, 1, 2, 3] : Fin 4 → Fin S64x1x1024x1.rank)
  reducesTo_S64x1x1024x1_S64x1x1024_d3 : S64x1x1024x1.ReducesTo [3] S64x1x1024
  h_S_ : 0 < S_.numel
  shapeCasts_S64x1x1024_S64x1024 : S64x1x1024.ShapeCasts S64x1024
  gather_S64x512x1024_S64x1x1024x1_S64x1x1024_n_1_02_02_1_3_111_wf : GatherDims.WF S64x512x1024 S64x1x1024x1 S64x1x1024 [] [1] [0, 2] [1] [0, 2] 3 ![1, 1, 1]

variable [Facts₀]

def gather_S64x512x1024_S64x1x1024x1_S64x1x1024_n_1_02_02_1_3_111 : GatherDims S64x512x1024 S64x1x1024x1 S64x1x1024 where
  offsetDims := []
  collapsedSliceDims := [1]
  operandBatchingDims := [0, 2]
  startIndicesBatchingDims := [0, 2]
  startIndexMap := [1]
  indexVectorDim := 3
  sliceSizes := ![1, 1, 1]
  wf := gather_S64x512x1024_S64x1x1024x1_S64x1x1024_n_1_02_02_1_3_111_wf

class Facts : Prop extends Facts₀ where

variable [Facts]
-- ==== Proof.Words.lean ====
/-
  Words and sums the gather-by-mask needs, over no program.

  The kernel selects a sequence position by COMPARING: at a seq tile starting at `base`, the lane at offset `k` keeps its
  token exactly when `k = clamp(idx) - base` as 32-bit words, and the other lanes contribute `0`; the tile's lane sum is
  then the one kept token, or `0` when the position lies in another tile. This module states those facts on words and on
  sums of extended reals:
  * a word that passes the two signed comparisons `0 ≤ w` and `w < 512` has `w.toNat < 512` (`lt_of_cmp`);
  * on such a word the kernel's clamp `min 511 (max 0 w)` is the identity (`clamp_id`), and so is the reference's
    wrap `w < 0 ? w + 512 : w` (`wrap_id`); it passes the reference's own range test `0 ≤ w ∧ w ≤ 511` (`inb_id`);
  * the word comparison `k = w - 256·s` holds exactly when `w = 256·s + k` as numbers (`hit_iff`);
  * a sum with at most one non-zero term is that term (`sum_pick`), or `0` when no term is kept (`sum_none`): only
    `x + 0 = x`, which holds at the infinities too, so no finiteness enters.
-/
import Idealize.ShloMosaic.PureOps
import Idealize.ShloMosaic.Lib.StableHlo.Predicate
import Mathlib.Data.EReal.Basic
import Mathlib.Algebra.BigOperators.Group.Finset.Basic

namespace Cert.Words

open Idealize.ShloMosaic Idealize.ShloMosaic.StableHlo.Predicate

/-- A word inside `[0, 512)` when read signed: what the two printed comparisons of the precondition say. -/
theorem lt_of_cmp {w : BitVec 32} (h0 : IntOp.cmpi .sge w 0#32 = 1#1) (h1 : IntOp.cmpi .slt w 512#32 = 1#1) :
    w.toNat < 512 := by
  unfold IntOp.cmpi at h0 h1
  have a0 : (0#32 : BitVec 32).sle w = true := (ofBool_eq_one_iff _).1 h0
  have a1 : w.slt 512#32 = true := (ofBool_eq_one_iff _).1 h1
  simp only [BitVec.sle, BitVec.slt, decide_eq_true_eq] at a0 a1
  have e0 : (0#32 : BitVec 32).toInt = 0 := by decide
  have e1 : (512#32 : BitVec 32).toInt = 512 := by decide
  rw [e0] at a0; rw [e1] at a1
  rw [BitVec.toInt_eq_toNat_cond] at a0 a1
  have := w.isLt
  split at a0 <;> omega

/-- A small word reads the same signed and unsigned. -/
theorem toInt_small {w : BitVec 32} (h : w.toNat < 512) : w.toInt = w.toNat :=
  toInt_eq_toNat_of_lt (by omega)

/-- The kernel's clamp into `[0, 511]` leaves a word of that range alone. -/
theorem clamp_id {w : BitVec 32} (h : w.toNat < 512) : IntOp.minsi 511#32 (IntOp.maxsi 0#32 w) = w := by
  have hw := toInt_small h
  have e0 : (0#32 : BitVec 32).toInt = 0 := by decide
  have e1 : (511#32 : BitVec 32).toInt = 511 := by decide
  have hmax : IntOp.maxsi 0#32 w = w := by
    unfold IntOp.maxsi
    rw [if_neg]
    simp only [BitVec.slt, hw, e0, decide_eq_true_eq]; omega
  rw [hmax]
  unfold IntOp.minsi
  rw [if_neg]
  simp only [BitVec.slt, hw, e1, decide_eq_true_eq]; omega

/-- The reference's wrap of a negative index leaves a word of `[0, 512)` alone: it is not negative. -/
theorem wrap_id {w : BitVec 32} (h : w.toNat < 512) :
    Scalar.select (IntOp.cmpi .slt w 0#32) (IntOp.addi w 512#32) w = w := by
  have hw := toInt_small h
  have e0 : (0#32 : BitVec 32).toInt = 0 := by decide
  have hc : IntOp.cmpi .slt w 0#32 = 0#1 := by
    unfold IntOp.cmpi
    have : w.slt 0#32 = false := by
      simp only [BitVec.slt, hw, e0, decide_eq_false_iff_not]; omega
    rw [this]; rfl
  rw [hc]; exact if_neg (by decide)

/-- A word of `[0, 512)` passes the reference's own range test `0 ≤ w ∧ w ≤ 511`. -/
theorem inb_id {w : BitVec 32} (h : w.toNat < 512) :
    IntOp.andi (IntOp.cmpi .sge w 0#32) (IntOp.cmpi .sle w 511#32) = 1#1 := by
  have hw := toInt_small h
  have e0 : (0#32 : BitVec 32).toInt = 0 := by decide
  have e1 : (511#32 : BitVec 32).toInt = 511 := by decide
  have c0 : IntOp.cmpi .sge w 0#32 = 1#1 := by
    unfold IntOp.cmpi
    have : (0#32 : BitVec 32).sle w = true := by simp only [BitVec.sle, hw, e0, decide_eq_true_eq]; omega
    rw [this]; rfl
  have c1 : IntOp.cmpi .sle w 511#32 = 1#1 := by
    unfold IntOp.cmpi
    have : w.sle 511#32 = true := by simp only [BitVec.sle, hw, e1, decide_eq_true_eq]; omega
    rw [this]; rfl
  rw [c0, c1]; decide

/-- The lane test: lane `k` of the seq tile `s` (256 lanes a tile) is the selected one exactly when the word is
    `256·s + k`. The subtraction is the words' (it wraps), and still decides the position: both sides stay below 2³². -/
theorem hit_iff {w : BitVec 32} (h : w.toNat < 512) (s k : ℕ) (hs : s < 2) (hk : k < 256) :
    IntOp.cmpi .eq (BitVec.ofNat 32 (0 * 256 + k)) (IntOp.subi w (IntOp.muli (BitVec.ofNat 32 s) 256#32)) = 1#1
      ↔ w.toNat = 256 * s + k := by
  rw [cmpi_eq_iff]
  unfold IntOp.subi IntOp.muli
  constructor
  · intro e
    have := congrArg BitVec.toNat e
    simp only [BitVec.toNat_sub, BitVec.toNat_mul, BitVec.toNat_ofNat] at this
    omega
  · intro e
    apply BitVec.eq_of_toNat_eq
    simp only [BitVec.toNat_sub, BitVec.toNat_mul, BitVec.toNat_ofNat]
    omega

/-- A sum over lanes of which only lane `k₀` passes the test is the token at `k₀`: the select writes `0` on every
    other lane. -/
theorem sum_pick {n : ℕ} (c : Fin n → BitVec 1) (f : Fin n → EReal) (k₀ : Fin n)
    (hp : ∀ k, c k = 1#1 ↔ k = k₀) : (∑ k : Fin n, Scalar.select (c k) (f k) 0) = f k₀ := by
  rw [Finset.sum_eq_single k₀]
  · rw [(hp k₀).2 rfl]; exact if_pos rfl
  · intro k _ hne
    exact if_neg (fun h => hne ((hp k).1 h))
  · intro h; exact absurd (Finset.mem_univ _) h

/-- A sum over lanes none of which passes the test is `0`. -/
theorem sum_none {n : ℕ} (c : Fin n → BitVec 1) (f : Fin n → EReal)
    (hp : ∀ k, ¬c k = 1#1) : (∑ k : Fin n, Scalar.select (c k) (f k) 0) = 0 :=
  Finset.sum_eq_zero fun k _ => if_neg (hp k)

end Cert.Words
-- ==== Proof.PreIdx.lean ====
/-
  What the precondition says of the index input.

  The precondition is the conjunction of two `all`s: every token finite, and every index word `w` with `0 ≤ w` and
  `w < 512` as signed words. Read back, the second conjunct gives `w.toNat < 512` at every position: the index names a
  sequence position of the axis of extent 512 it selects from. The first conjunct is not used: selecting one token and adding zeros
  is exact on the extended reals, infinities included.
-/
import proofs.«406942_j63230508532019_3_alg».proof.Proof.Gen.Pre_finite_inputs
import proofs.«406942_j63230508532019_3_alg».proof.Proof.Words
import Idealize.ShloMosaic.Lib.ReduceAll
import Idealize.ShloMosaic.Lib.ValueIdx

namespace Cert.PreIdx

open Idealize.ShloMosaic Cert.Pre_finite_inputs

instance : Subsingleton S_.Idx := ⟨fun a b => funext fun d => d.elim0⟩

/-- Under the precondition every index word lies in `[0, 512)`. -/
theorem idx_lt {F : FTy → Type} [FloatOps F] (x0 : FVec F S64x512x1024 .f32) (x1 : IVec S64x1024 32)
    (h : fn (F := F) x0 x1 = fun _ => 1#1) (i : S64x1024.Idx) : (x1 i).toNat < 512 := by
  have h0 := congrFun h ValueIdx.ix0
  dsimp only [fn] at h0
  obtain ⟨-, h2⟩ := IntOp.andi_eq_one.1 h0
  have h3 := Host.reduce_andi_all _ _ _ _ _ h2 i
  obtain ⟨a, b⟩ := IntOp.andi_eq_one.1 h3
  exact Cert.Words.lt_of_cmp a b

end Cert.PreIdx
-- ==== Proof.Payload.lean ====
/-
  The kernel body's stored value at an index, at the ideal instance.

  One grid point `(bi, si)` holds a block of 8 batch rows and 256 sequence positions. For batch row `r` and column `j` of
  the block the body adds to the accumulator the lane sum over the 256 positions `k` of
  "the token at `(r, k, j)` if `k = clamp(idx[r, j]) - 256·si`, else `0`", where `clamp` is into `[0, 511]`.
  `pay_apply` states exactly that: the accumulator's entry plus a sum of 256 selects, the lane test spelt on words.
  `tile_sum` evaluates the sum for an index word of `[0, 512)`: the token at the selected position when it falls in this
  tile, `0` otherwise.
-/
import proofs.«406942_j63230508532019_3_alg».proof.Proof.Gen.KernelIdeal.Skeleton
import proofs.«406942_j63230508532019_3_alg».proof.Proof.Words
import Idealize.ShloMosaic.Lib.ValueIdx
import Idealize.ShloMosaic.Lib.Pipeline.Value
import Idealize.ShloMosaic.PureOps.Ideal.Laws

noncomputable section

namespace Cert.KernelIdeal.Lane

open Cert.KernelIdeal Cert.KernelIdeal.Gen Idealize.ShloMosaic Idealize.ShloMosaic.ValueIdx

/-- The lane test of the body at seq tile `s`: lane `k` against the clamped index word `w` moved to the tile's origin. -/
abbrev laneBit (s : ℕ) (w : BitVec 32) (k : ℕ) : BitVec 1 :=
  IntOp.cmpi .eq (BitVec.ofNat 32 (0 * 256 + k))
    (IntOp.subi (IntOp.minsi 511#32 (IntOp.maxsi 0#32 w)) (IntOp.muli (BitVec.ofNat 32 s) 256#32))

/-- The source index of the lane sum over result index `(r, j)` with lane `k` is `(r, k, j)`. -/
theorem lift_eq (r : Fin 8) (j : Fin 1024) (k : Fin 256) :
    Gen.reduces_S8x256x1024_S8x1024.lift (ix2 r j) k = ix3 r k j :=
  funext fun c => Fin.ext (match c with
    | ⟨0, _⟩ => rfl
    | ⟨1, _⟩ => rfl
    | ⟨2, _⟩ => rfl)

/-- The lane counter broadcast over the block reads, at `(r, k, j)`, the word `k`. -/
theorem lane_apply (r : Fin 8) (k : Fin 256) (j : Fin 1024) :
    broadcastTo S8x256x1024 (iota .tc S1x256x1 32 [1] Gen.iota_S1x256x1_d1_w32) Gen.broadcasts_S1x256x1_S8x256x1024 (ix3 r k j)
      = BitVec.ofNat 32 (0 * 256 + k.val) :=
  broadcastTo_apply _ Gen.broadcasts_S1x256x1_S8x256x1024 (ix3 r k j) (ix3 (0 : Fin 1) k (0 : Fin 1)) (fun a => match a with
    | ⟨0, _⟩ => by show (0 : ℕ) = if (1 : ℕ) = 1 then 0 else r.val; rw [if_pos rfl]
    | ⟨1, _⟩ => by show k.val = if (256 : ℕ) = 1 then 0 else k.val; rw [if_neg (by decide)]
    | ⟨2, _⟩ => by show (0 : ℕ) = if (1 : ℕ) = 1 then 0 else j.val; rw [if_pos rfl])

/-- A per-(row, column) word array, given a unit sequence axis and broadcast over the block, reads at `(r, k, j)` the
    word at `(r, j)`. -/
theorem col_apply (v : IVec S8x1024 32) (r : Fin 8) (k : Fin 256) (j : Fin 1024) :
    broadcastTo S8x256x1024 (shapeCast S8x1x1024 v Gen.shapeCasts_S8x1024_S8x1x1024) Gen.broadcasts_S8x1x1024_S8x256x1024 (ix3 r k j)
      = v (ix2 r j) :=
  (broadcastTo_apply _ Gen.broadcasts_S8x1x1024_S8x256x1024 (ix3 r k j) (ix3 r (0 : Fin 1) j) (fun a => match a with
    | ⟨0, _⟩ => by show r.val = if (8 : ℕ) = 1 then 0 else r.val; rw [if_neg (by decide)]
    | ⟨1, _⟩ => by show (0 : ℕ) = if (1 : ℕ) = 1 then 0 else k.val; rw [if_pos rfl]
    | ⟨2, _⟩ => by show j.val = if (1024 : ℕ) = 1 then 0 else j.val; rw [if_neg (by decide)])).trans
  (shapeCast_apply v Gen.shapeCasts_S8x1024_S8x1x1024 (ix3 r (0 : Fin 1) j) (ix2 r j) (by
    rw [Shape.rowMajor_val_two, Shape.rowMajor_val_three]
    show r.val * 1024 + j.val = (r.val * 1 + 0) * 1024 + j.val
    omega))

/-- THE STORED VALUE at `(r, j)`: the accumulator there plus the masked lane sum. -/
theorem pay_apply (i : grid0.Coords) (x1 : Vec Ideal S8x1024 .i32) (x0 : Vec Ideal S8x256x1024 .f32)
    (acc : Vec Ideal S8x1024 .f32) (r : Fin 8) (j : Fin 1024) :
    k0_pay2 (F := Ideal) i x1 x0 acc (ix2 r j)
      = acc (ix2 r j) + ∑ k : Fin 256, Scalar.select (laneBit (i 1).val (x1 (ix2 r j)) k.val) (x0 (ix3 r k j)) 0 := by
  unfold k0_pay2
  dsimp only
  rw [addf_apply, shapeCast_self]
  congr 1
  refine (Ideal.multiReduction_add_single (s := S8x256x1024) (t := S8x1024) (a := 1) _ 0x00000000#32
    Gen.reduces_S8x256x1024_S8x1024 _ _ (ix2 r j)).trans ?_
  refine Finset.sum_congr rfl fun (k : Fin 256) _ => ?_
  refine (congrArg (select _ x0 _) (lift_eq r j k)).trans ?_
  show Scalar.select (IntOp.cmpi .eq (broadcastTo S8x256x1024 _ _ (ix3 r k j)) (broadcastTo S8x256x1024 _ _ (ix3 r k j)))
    (x0 (ix3 r k j)) (Ideal.ofBits .f32 0x00000000#32) = _
  rw [lane_apply, col_apply, Ideal.ofBits_zero_f32]
  rfl

/-- THE LANE SUM of seq tile `s` for an index word `w` of `[0, 512)`: the clamp does nothing, exactly the lane
    `w - 256·s` passes the test when the position lies in the tile, and no lane does otherwise. -/
theorem tile_sum (w : BitVec 32) (hw : w.toNat < 512) (s : ℕ) (hs : s < 2) (f : Fin 256 → EReal) :
    (∑ k : Fin 256, Scalar.select (laneBit s w k.val) (f k) 0)
      = if h : 256 * s ≤ w.toNat ∧ w.toNat < 256 * s + 256 then f ⟨w.toNat - 256 * s, by omega⟩ else 0 := by
  have hc : ∀ k : Fin 256, laneBit s w k.val = 1#1 ↔ w.toNat = 256 * s + k.val := fun k => by
    unfold laneBit; rw [Cert.Words.clamp_id hw]; exact Cert.Words.hit_iff hw s k.val hs k.isLt
  split
  · next h =>
    exact Cert.Words.sum_pick _ f ⟨w.toNat - 256 * s, by omega⟩ (fun k => (hc k).trans
      ⟨fun e => Fin.ext (by show k.val = w.toNat - 256 * s; omega), fun e => by rw [e]; show w.toNat = 256 * s + (w.toNat - 256 * s); omega⟩)
  · next h =>
    exact Cert.Words.sum_none _ f (fun k hk => h (by have := (hc k).1 hk; have := k.isLt; omega))

end Cert.KernelIdeal.Lane

end
-- ==== Proof.Spec.lean ====
/-
  The function both programs compute: `out[b, j] = tokens[b, idx[b, j], j]`.

  The sequence position is written `idx mod 512` so that the function is total over all index words; under the
  precondition every index word already lies in `[0, 512)` and the reduction does nothing. No arithmetic on the tokens
  occurs: the result is one entry of the input, so it is the same extended real on both sides, finite or not.
-/
import Idealize.ShloMosaic.PureOps
import Idealize.ShloMosaic.Lib.ValueIdx
import Mathlib.Data.EReal.Basic

namespace Cert.Spec

open Idealize.ShloMosaic Idealize.ShloMosaic.ValueIdx

/-- The token selected for batch row `b` and column `j`. -/
def pick (tok : (⟨3, ![64, 512, 1024]⟩ : Shape).Idx → EReal) (idx : (⟨2, ![64, 1024]⟩ : Shape).Idx → BitVec 32) :
    (⟨2, ![64, 1024]⟩ : Shape).Idx → EReal :=
  fun i => tok (ix3 (⟨(i 0).val, idx2_lt0 i⟩ : Fin 64) (⟨(idx i).toNat % 512, Nat.mod_lt _ (by decide)⟩ : Fin 512)
    (⟨(i 1).val, idx2_lt1 i⟩ : Fin 1024))

theorem pick_apply (tok : (⟨3, ![64, 512, 1024]⟩ : Shape).Idx → EReal) (idx : (⟨2, ![64, 1024]⟩ : Shape).Idx → BitVec 32)
    (b : Fin 64) (j : Fin 1024) :
    pick tok idx (ix2 b j) = tok (ix3 b (⟨(idx (ix2 b j)).toNat % 512, Nat.mod_lt _ (by decide)⟩ : Fin 512) j) := rfl

end Cert.Spec
-- ==== Proof.KernelValue.lean ====
/-
  The kernel's result array is the selection.

  The generated value leg gives the result array as a fold over each batch tile's two seq tiles: the first point resets the
  8×1024 accumulator to zero and adds its masked lane sum, the second adds its own. For batch row `b = 8·R + r` and column `j`
  with index word `w = idx[b, j]` in `[0, 512)`, exactly one of the two tiles holds position `w`: its lane sum is the token
  at `(b, w, j)` and the other's is `0`, so the entry ends at `0 + token + 0` or `0 + 0 + token`: the token itself.
-/
import proofs.«406942_j63230508532019_3_alg».proof.Proof.Gen.KernelIdeal.Value
import proofs.«406942_j63230508532019_3_alg».proof.Proof.Payload
import proofs.«406942_j63230508532019_3_alg».proof.Proof.Spec

noncomputable section

namespace Cert.KernelIdeal.Pick

open Cert.KernelIdeal Cert.KernelIdeal.Gen Idealize.ShloMosaic Idealize.ShloMosaic.ValueIdx

variable (m : (ℓ : Loc nD τ sig) → Buf (Elt Ideal) ℓ)

/-- The token array and the index array as the region finds them, and a point's blocks of them, at their literal types. -/
abbrev tok (c : Dev nD) : Vec Ideal S64x512x1024 .f32 := V m c main_arg0
abbrev idx (c : Dev nD) : Vec Ideal S64x1024 .i32 := V m c main_arg1
abbrev tokBlk (c : Dev nD) (t : Fin cfg0.N) : Vec Ideal S8x256x1024 .f32 := iblk m c 0 t
abbrev idxBlk (c : Dev nD) (t : Fin cfg0.N) : Vec Ideal S8x1024 .i32 := iblk m c 1 t

/-- The printed index maps over the grid: point `t` is batch tile `t / 2`, seq tile `t % 2`. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = t.val / 2 ∧ win0_1.index t (1 : Fin 2) = 0
    ∧ ((grid0.coords t) 1).val = t.val % 2 :=
  (by decide +kernel : ∀ t : Fin grid0.N, _)

/-- The token block of point `t` at `(r, k, j)` is the token array at batch row `8·(t/2) + r`, position `256·(t%2) + k`. -/
theorem tokBlk_apply (c : Dev nD) (t : Fin cfg0.N) (r : Fin 8) (k : Fin 256) (j : Fin 1024) (b : Fin 64) (p : Fin 512)
    (hb : b.val = 8 * (t.val / 2) + r.val) (hp : p.val = 256 * (t.val % 2) + k.val) :
    tokBlk m c t (ix3 r k j) = tok m c (ix3 b p j) := by
  obtain ⟨e0, e1, e2, -, -, -⟩ := idx_facts t
  show tok m c (((cfg0.win 0).blk t).view.emb (ix3 r k j)) = _
  refine congrArg (tok m c) (funext fun a => Fin.ext ?_)
  match a with
  | ⟨0, _⟩ => show win0_0.index t (0 : Fin 3) * 8 + 1 * r.val = b.val; omega
  | ⟨1, _⟩ => show win0_0.index t (1 : Fin 3) * 256 + 1 * k.val = p.val; omega
  | ⟨2, _⟩ => show win0_0.index t (2 : Fin 3) * 1024 + 1 * j.val = j.val; omega

/-- The index block of point `t` at `(r, j)` is the index array at batch row `8·(t/2) + r`. -/
theorem idxBlk_apply (c : Dev nD) (t : Fin cfg0.N) (r : Fin 8) (j : Fin 1024) (b : Fin 64)
    (hb : b.val = 8 * (t.val / 2) + r.val) :
    idxBlk m c t (ix2 r j) = idx m c (ix2 b j) := by
  obtain ⟨-, -, -, e0, e1, -⟩ := idx_facts t
  show idx m c (((cfg0.win 1).blk t).view.emb (ix2 r j)) = _
  refine congrArg (idx m c) (funext fun a => Fin.ext ?_)
  match a with
  | ⟨0, _⟩ => show win0_1.index t (0 : Fin 2) * 8 + 1 * r.val = b.val; omega
  | ⟨1, _⟩ => show win0_1.index t (1 : Fin 2) * 1024 + 1 * j.val = j.val; omega

/-- THE FOLD of batch tile `R` at `(r, j)`: the selected token of batch row `b = 8·R + r`. -/
theorem fold_apply (c : Dev nD) (hidx : ∀ i, (idx m c i).toNat < 512) (R : ℕ) (h : 2 * R + 1 < cfg0.N)
    (r : Fin 8) (j : Fin 1024) (b : Fin 64) (hb : b.val = 8 * R + r.val) :
    Pipeline.accAt (Value.reset2 m c) (Value.step2 m c) (2 * R) 1 h (ix2 r j)
      = tok m c (ix3 b (⟨(idx m c (ix2 b j)).toNat % 512, Nat.mod_lt _ (by decide)⟩ : Fin 512) j) := by
  have ht0 : 2 * R < cfg0.N := Nat.lt_of_succ_lt h
  have hw := hidx (ix2 b j)
  show Value.step2 m c (2 * R + (0 + 1)) h (Value.reset2 m c (2 * R) ht0) (ix2 r j) = _
  unfold Value.step2 Value.reset2
  have e0 := Lane.pay_apply (grid0.coords ⟨2 * R, ht0⟩) (idxBlk m c ⟨2 * R, ht0⟩) (tokBlk m c ⟨2 * R, ht0⟩) (k0_pay1 (F := Ideal)) r j
  have e1 := Lane.pay_apply (grid0.coords ⟨2 * R + (0 + 1), h⟩) (idxBlk m c ⟨2 * R + (0 + 1), h⟩) (tokBlk m c ⟨2 * R + (0 + 1), h⟩)
    (k0_pay2 (F := Ideal) (grid0.coords ⟨2 * R, ht0⟩) (idxBlk m c ⟨2 * R, ht0⟩) (tokBlk m c ⟨2 * R, ht0⟩) (k0_pay1 (F := Ideal))) r j
  refine e1.trans ?_
  rw [e0]
  have hi0 : idxBlk m c ⟨2 * R, ht0⟩ (ix2 r j) = idx m c (ix2 b j) :=
    idxBlk_apply m c ⟨2 * R, ht0⟩ r j b (by show b.val = 8 * (2 * R / 2) + r.val; omega)
  have hi1 : idxBlk m c ⟨2 * R + (0 + 1), h⟩ (ix2 r j) = idx m c (ix2 b j) :=
    idxBlk_apply m c ⟨2 * R + (0 + 1), h⟩ r j b (by show b.val = 8 * ((2 * R + (0 + 1)) / 2) + r.val; omega)
  have hg0 : ((grid0.coords ⟨2 * R, ht0⟩) 1).val = 0 := by
    have := (idx_facts ⟨2 * R, ht0⟩).2.2.2.2.2
    rw [this]; show 2 * R % 2 = 0; omega
  have hg1 : ((grid0.coords ⟨2 * R + (0 + 1), h⟩) 1).val = 1 := by
    have := (idx_facts ⟨2 * R + (0 + 1), h⟩).2.2.2.2.2
    rw [this]; show (2 * R + (0 + 1)) % 2 = 1; omega
  rw [hi0, hi1, hg0, hg1]
  have s0 := Lane.tile_sum (idx m c (ix2 b j)) hw 0 (by decide) (fun k => tokBlk m c ⟨2 * R, ht0⟩ (ix3 r k j))
  have s1 := Lane.tile_sum (idx m c (ix2 b j)) hw 1 (by decide) (fun k => tokBlk m c ⟨2 * R + (0 + 1), h⟩ (ix3 r k j))
  beta_reduce at s0 s1
  rw [s0, s1]
  have hz : k0_pay1 (F := Ideal) (ix2 r j) = 0 := Ideal.ofBits_zero_f32
  rw [hz, zero_add]
  by_cases hn : (idx m c (ix2 b j)).toNat < 256
  · rw [dif_pos ⟨by omega, by omega⟩, dif_neg (by omega), add_zero]
    exact tokBlk_apply m c ⟨2 * R, ht0⟩ r _ j b _ (by show b.val = 8 * (2 * R / 2) + r.val; omega)
      (by show (idx m c (ix2 b j)).toNat % 512 = 256 * (2 * R % 2) + ((idx m c (ix2 b j)).toNat - 256 * 0); omega)
  · rw [dif_neg (by omega), dif_pos ⟨by omega, by omega⟩, zero_add]
    exact tokBlk_apply m c ⟨2 * R + (0 + 1), h⟩ r _ j b _ (by show b.val = 8 * ((2 * R + (0 + 1)) / 2) + r.val; omega)
      (by show (idx m c (ix2 b j)).toNat % 512 = 256 * ((2 * R + (0 + 1)) % 2) + ((idx m c (ix2 b j)).toNat - 256 * 1); omega)

/-- THE RESULT ARRAY after the run is the selection, when every index word lies in `[0, 512)`. -/
theorem G2_eq (c : Dev nD) (hidx : ∀ i, (idx m c i).toNat < 512) :
    Value.G2 (F := Ideal) m c = Cert.Spec.pick (tok m c) (idx m c) := by
  funext i
  obtain ⟨b, j, rfl⟩ : ∃ (b : Fin 64) (j : Fin 1024), i = ix2 b j := ⟨i 0, i 1, eq_ix2 i⟩
  rw [Cert.Spec.pick_apply]
  have hN : cfg0.N = 16 := N_0
  have hb8 : b.val < 64 := b.isLt
  have hj : j.val < 1024 := j.isLt
  have hrun : Value.run2Of (ix2 b j) = b.val / 8 := by
    show 1 * (b.val / 8 - 0) + 1 * (j.val / 1024 - 0) = b.val / 8
    omega
  unfold Value.G2
  rw [dif_pos (by rw [hrun, hN]; omega)]
  have hloc : Value.loc2Of (ix2 b j) = ix2 (⟨b.val % 8, Nat.mod_lt _ (by decide)⟩ : Fin 8) j := by
    funext a; apply Fin.ext
    match a with
    | ⟨0, _⟩ => rfl
    | ⟨1, _⟩ => show j.val % 1024 = j.val; exact Nat.mod_eq_of_lt j.isLt
  rw [hloc]
  exact fold_apply m c hidx _ _ ⟨b.val % 8, Nat.mod_lt _ (by decide)⟩ j b (by rw [hrun]; show b.val = 8 * (b.val / 8) + b.val % 8; omega)

end Cert.KernelIdeal.Pick

end
-- ==== Proof.RefValue.lean ====
/-
  The reference at an index, under the precondition.

  The reference is `take_along_axis` along the sequence axis: the index is wrapped when negative, tested against
  `[0, 511]`, used as the start of a one-element gather (batched over the batch and column axes), and the gathered token is kept
  where the test passed and replaced by a quiet-NaN fill elsewhere. For an index word of `[0, 512)` the wrap is the identity, the
  test passes, the gather's clamp does nothing, so the result at `(b, j)` is the token at `(b, idx[b, j], j)`.
-/
import proofs.«406942_j63230508532019_3_alg».proof.Proof.RefRead
import proofs.«406942_j63230508532019_3_alg».proof.Proof.Words
import proofs.«406942_j63230508532019_3_alg».proof.Proof.Spec
import Idealize.ShloMosaic.Lib.ValueIdx

noncomputable section

namespace Cert.ReferenceIdeal.Take

open Cert.ReferenceIdeal Cert.ReferenceIdeal.Gen Cert.ReferenceIdeal.ReadP Idealize.ShloMosaic Idealize.ShloMosaic.ValueIdx

/-- An `and`-fold from `1` over bits that are all `1` is `1`. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = (1#1 : BitVec 1) := by decide
    rw [e]
    exact foldl_andi_one f l fun n hn => h n (List.mem_cons_of_mem _ hn)

/-- A host `reduce` by `and` from `1` of an array of ones is `1` everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-- The printed gather's dimension numbers: batch axes 0 and 2 on both sides, the one start component on axis 1. -/
abbrev gd : GatherDims S64x512x1024 S64x1x1024x1 S64x1x1024 := gather_S64x512x1024_S64x1x1024x1_S64x1x1024_n_1_02_02_1_3_111

/-- THE GATHER at `(b, 0, j)`: batch row and column pass through, the sequence coordinate is the start index at
    `(b, 0, j, 0)`, read signed and clamped into `[0, 511]`. -/
theorem gather_apply {α : Type} (x : S64x512x1024.Idx → α) (idx : IVec S64x1x1024x1 32) (b : Fin 64) (j : Fin 1024) :
    Host.gather gd x idx (ix3 b (0 : Fin 1) j)
      = x (ix3 b (⟨min (idx (ix4 b (0 : Fin 1) j (0 : Fin 1))).toInt.toNat 511, by omega⟩ : Fin 512) j) := by
  unfold Host.gather
  congr 1
  funext a
  refine Fin.ext ?_
  match a with
  | ⟨0, _⟩ =>
    have h1 : gd.start (ix3 b (0 : Fin 1) j) idx 0 = 0 := rfl
    have h2 : gd.batchCoord (ix3 b (0 : Fin 1) j) 0 = b.val := rfl
    have h3 : gd.offCoord (ix3 b (0 : Fin 1) j) 0 = 0 := rfl
    show gd.start (ix3 b (0 : Fin 1) j) idx 0 + gd.batchCoord (ix3 b (0 : Fin 1) j) 0 + gd.offCoord (ix3 b (0 : Fin 1) j) 0 = b.val
    rw [h1, h2, h3, Nat.zero_add, Nat.add_zero]
  | ⟨1, _⟩ =>
    have hsi : gd.siIdx (ix3 b (0 : Fin 1) j) ⟨0, by decide⟩ = ix4 b (0 : Fin 1) j (0 : Fin 1) := by
      funext d; apply Fin.ext
      match d with
      | ⟨0, _⟩ => rfl
      | ⟨1, _⟩ => rfl
      | ⟨2, _⟩ => rfl
      | ⟨3, _⟩ => rfl
    have h1 : gd.start (ix3 b (0 : Fin 1) j) idx 1
        = min (idx (gd.siIdx (ix3 b (0 : Fin 1) j) ⟨0, by decide⟩)).toInt.toNat 511 := rfl
    have h2 : gd.batchCoord (ix3 b (0 : Fin 1) j) 1 = 0 := rfl
    have h3 : gd.offCoord (ix3 b (0 : Fin 1) j) 1 = 0 := rfl
    show gd.start (ix3 b (0 : Fin 1) j) idx 1 + gd.batchCoord (ix3 b (0 : Fin 1) j) 1 + gd.offCoord (ix3 b (0 : Fin 1) j) 1
      = min (idx (ix4 b (0 : Fin 1) j (0 : Fin 1))).toInt.toNat 511
    rw [h1, h2, h3, hsi]
    rfl
  | ⟨2, _⟩ =>
    have h1 : gd.start (ix3 b (0 : Fin 1) j) idx 2 = 0 := rfl
    have h2 : gd.batchCoord (ix3 b (0 : Fin 1) j) 2 = j.val := rfl
    have h3 : gd.offCoord (ix3 b (0 : Fin 1) j) 2 = 0 := rfl
    show gd.start (ix3 b (0 : Fin 1) j) idx 2 + gd.batchCoord (ix3 b (0 : Fin 1) j) 2 + gd.offCoord (ix3 b (0 : Fin 1) j) 2 = j.val
    rw [h1, h2, h3, Nat.zero_add, Nat.add_zero]

variable (x0 : Vec Ideal S64x512x1024 .f32) (x1 : IVec S64x1024 32)

/-- The wrapped index at `(b, 0, j)` is the index word at `(b, j)`: a word of `[0, 512)` is not negative. -/
theorem wrapped_apply (hidx : ∀ i, (x1 i).toNat < 512) (i : S64x1x1024.Idx) :
    val_main_call0_v4 (F := Ideal) x1 i = x1 (idx_main_v0 i) := by
  rw [val_main_call0_v4_apply, val_main_call0_v1_apply, val_main_call0_v3_apply, val_main_call0_v0_apply,
    val_main_call0_c_apply, val_main_call0_v2_apply, val_main_call0_c_0_apply, val_main_v0_apply]
  exact Cert.Words.wrap_id (hidx _)

/-- The range test passes at every start index. -/
theorem inb_apply (hidx : ∀ i, (x1 i).toNat < 512) (i : S64x1x1024x1.Idx) :
    val_main_call0_v11 (F := Ideal) x1 i = 1#1 := by
  rw [val_main_call0_v11_apply, val_main_call0_v7_apply, val_main_call0_v10_apply, val_main_call0_v5_apply,
    val_main_call0_v6_apply, val_main_call0_c_2_apply, val_main_call0_v9_apply, val_main_call0_v8_apply,
    val_main_call0_c_1_apply, wrapped_apply x1 hidx]
  exact Cert.Words.inb_id (hidx _)

/-- THE REFERENCE's result is the selection, when every index word lies in `[0, 512)`. -/
theorem ref_eq (hidx : ∀ i, (x1 i).toNat < 512) :
    val_main_v2 (F := Ideal) x0 x1 = Cert.Spec.pick x0 x1 := by
  funext i
  obtain ⟨b, j, rfl⟩ : ∃ (b : Fin 64) (j : Fin 1024), i = ix2 b j := ⟨i 0, i 1, eq_ix2 i⟩
  rw [Cert.Spec.pick_apply, val_main_v2_apply]
  have hb : b.val < 64 := b.isLt
  have hj : j.val < 1024 := j.isLt
  have hi3 : idx_main_v2 (ix2 b j) = ix3 b (0 : Fin 1) j := by
    funext d; apply Fin.ext
    match d with
    | ⟨0, _⟩ => show (b.val * 1024 + j.val) / 1024 = b.val; omega
    | ⟨1, _⟩ => rfl
    | ⟨2, _⟩ => show (b.val * 1024 + j.val) % 1024 = j.val; omega
  rw [hi3, val_main_v1_apply]
  have hmask : val_main_call0_v12 (F := Ideal) x1 (ix3 b (0 : Fin 1) j) = 1#1 :=
    reduce_andi_one _ _ _ _ _ (inb_apply x1 hidx) rfl
  rw [hmask, select_one]
  show Host.gather gd x0 (val_main_call0_v5 (F := Ideal) x1) (ix3 b (0 : Fin 1) j) = _
  rw [gather_apply]
  have hi2 : idx_main_v0 (idx_main_call0_v5 (ix4 b (0 : Fin 1) j (0 : Fin 1))) = ix2 b j := by
    funext d; apply Fin.ext
    match d with
    | ⟨0, _⟩ => show (((b.val * 1 + 0) * 1024 + j.val) * 1 + 0) / 1024 = b.val; omega
    | ⟨1, _⟩ => show (((b.val * 1 + 0) * 1024 + j.val) * 1 + 0) % 1024 = j.val; omega
  refine congrArg x0 ?_
  have hw := hidx (ix2 b j)
  have hint := Cert.Words.toInt_small hw
  funext d; apply Fin.ext
  match d with
  | ⟨0, _⟩ => rfl
  | ⟨1, _⟩ =>
    show min (val_main_call0_v5 (F := Ideal) x1 (ix4 b (0 : Fin 1) j (0 : Fin 1))).toInt.toNat 511 = (x1 (ix2 b j)).toNat % 512
    rw [val_main_call0_v5_apply, wrapped_apply x1 hidx, hi2, hint]
    omega
  | ⟨2, _⟩ => rfl

end Cert.ReferenceIdeal.Take

end
-- ==== Proof.lean ====
/-
  The claim: a masked-sum gather against `take_along_axis`.

  Both programs compute `out[b, j] = tokens[b, idx[b, j], j]` over tokens `[64, 512, 1024]` and indices `[64, 1024]`.
  The kernel scans the sequence axis in two tiles of 256 positions per batch tile of 8 rows: it clamps the index into
  `[0, 511]`, keeps the token whose position equals the index, writes zero elsewhere, sums the tile's lanes and accumulates
  the two tiles into the output block, zeroed at the first. The reference wraps a negative index, gathers one element along the
  sequence axis, and keeps it where the wrapped index passed the range test `[0, 511]`, a NaN fill elsewhere.

  Outside `[0, 512)` the two differ (the kernel clamps where the reference wraps or fills), so the precondition asks, beside
  finiteness, that every index lie in the range of the axis it selects from: `0 ≤ idx < 512`. Under it:
  * the kernel's clamp is the identity, exactly one lane of exactly one tile passes the test, and the accumulated value is
    `0 + token + 0` or `0 + 0 + token`: the token (Proof/Payload.lean, Proof/KernelValue.lean over the generated value leg);
  * the reference's wrap is the identity, its range test passes, the gather's own clamp does nothing: the same token
    (Proof/RefValue.lean over the reference's run, read one operation at a time);
  * both are the one function `Cert.Spec.pick` of the argument arrays (Proof/Spec.lean).
  Adding zeros and selecting an entry are exact on the extended reals at the infinities too, so finiteness is never opened;
  only the index range is read out of the precondition (Proof/PreIdx.lean). The idealization pass rewrote nothing, so the
  `preserves` conjunct is `True`.
-/
import proofs.«406942_j63230508532019_3_alg».proof.Defs
import proofs.«406942_j63230508532019_3_alg».proof.Proof.Gen.Kernel.Frame
import proofs.«406942_j63230508532019_3_alg».proof.Proof.Gen.KernelIdeal.Value
import proofs.«406942_j63230508532019_3_alg».proof.Proof.Gen.Pre_finite_inputs
import proofs.«406942_j63230508532019_3_alg».proof.Proof.RefRead
import proofs.«406942_j63230508532019_3_alg».proof.Proof.PreIdx
import proofs.«406942_j63230508532019_3_alg».proof.Proof.KernelValue
import proofs.«406942_j63230508532019_3_alg».proof.Proof.RefValue
import Idealize.ShloMosaic.Adequacy
import Idealize.ShloMosaic.Init

noncomputable section

namespace Cert.Proof

open Idealize.ShloMosaic Idealize.SL.Sem

/-- The idealized kernel runs and keeps its arguments: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and keeps its arguments: its run, the result dropped. -/
theorem frame_ReferenceIdeal : frame_ReferenceIdeal := fun m ρ _ =>
  (θ_run Cert.ReferenceIdeal.defs _ _).mono (fun _ h c => (h c).2) (Cert.ReferenceIdeal.ValueP.run (F := Ideal) m ρ)

/-- From memories agreeing on tokens and indices, with every index in `[0, 512)`, both programs end with the result
    array at the selection `pick tokens idx`. -/
theorem algebraic_KernelIdeal_ReferenceIdeal : algebraic_KernelIdeal_ReferenceIdeal := by
  intro m ρ m' ρ' hpre hagree
  have hidx : ∀ (c : Dev Cert.KernelIdeal.nD) (i : Cert.KernelIdeal.S64x1024.Idx),
      (Cert.KernelIdeal.Pick.idx m c i).toNat < 512 :=
    fun c i => Cert.PreIdx.idx_lt (F := Ideal) _ _ (hpre c) i
  refine ⟨fun c => Cert.Spec.pick (Cert.KernelIdeal.Pick.tok m c) (Cert.KernelIdeal.Pick.idx m c), ?_, ?_⟩
  · exact (θ_run Cert.KernelIdeal.defs _ _).mono
      (fun _ h c => ⟨(h c).1.trans (Cert.KernelIdeal.Pick.G2_eq m c (hidx c)), (h c).2⟩)
      (Cert.KernelIdeal.Value.run (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v2_eq, (hagree c).1, (hagree c).2]
    exact Cert.ReferenceIdeal.Take.ref_eq _ _ (hidx c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
